-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S128 : Shape := ⟨1, ![128]⟩
abbrev S1024 : Shape := ⟨1, ![1024]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128, .f32⟩
  | .local _ .vmem, ⟨0, _⟩ => ⟨S128x1024, .f32⟩
  | .local _ .vmem, ⟨1, _⟩ => ⟨S1024x1024, .f32⟩
  | .local _ .vmem, ⟨2, _⟩ => ⟨S128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  iota_S1024x1024_d0_w32 : S1024x1024.Iotas .tc 32 [0]
  iota_S1024x1024_d1_w32 : S1024x1024.Iotas .tc 32 [1]
  bitsLt_bf16_f32 : FTy.bits .bf16 < FTy.bits .f32
  reduces_S128x1024_S128 : S128x1024.Reduces [1] S128
  reduces_S1024x1024_S1024 : S1024x1024.Reduces [1] S1024
  reduces_S1024x1024_S1024_2 : S1024x1024.Reduces [0] S1024
  shapeCasts_S1024_S1x1024 : S1024.ShapeCasts S1x1024
  broadcasts_S1x1024_S128x1024 : S1x1024.Broadcasts S128x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S128_S128_0 : ∀ a, (![0] : Fin 1 → Nat) a + S128.size a ≤ S128.size a
  h_S128 : 0 < S128.numel
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S128x1x1024 : Shape := ⟨3, ![128, 1, 1024]⟩
abbrev S128x1024x1 : Shape := ⟨3, ![128, 1024, 1]⟩
abbrev S_ : Shape := ⟨0, ![]⟩
abbrev S128x1024x1024 : Shape := ⟨3, ![128, 1024, 1024]⟩
abbrev S1x1024x1024 : Shape := ⟨3, ![1, 1024, 1024]⟩
abbrev S128x1048576 : Shape := ⟨2, ![128, 1048576]⟩
abbrev S128 : Shape := ⟨1, ![128]⟩

abbrev nBuf : Space → Nat
  | .hbm => 33
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1x1024, .f32⟩
  | .hbm, ⟨3, _⟩ => ⟨S128x1024x1, .f32⟩
  | .hbm, ⟨4, _⟩ => ⟨S_, .f32⟩
  | .hbm, ⟨5, _⟩ => ⟨S128x1x1024, .f32⟩
  | .hbm, ⟨6, _⟩ => ⟨S128x1x1024, .f32⟩
  | .hbm, ⟨7, _⟩ => ⟨S_, .f32⟩
  | .hbm, ⟨8, _⟩ => ⟨S128x1024x1, .f32⟩
  | .hbm, ⟨9, _⟩ => ⟨S128x1024x1, .f32⟩
  | .hbm, ⟨10, _⟩ => ⟨S128x1024x1024, .f32⟩
  | .hbm, ⟨11, _⟩ => ⟨S128x1024x1024, .f32⟩
  | .hbm, ⟨12, _⟩ => ⟨S128x1024x1024, .f32⟩
  | .hbm, ⟨13, _⟩ => ⟨S128x1024x1024, .f32⟩
  | .hbm, ⟨14, _⟩ => ⟨S128x1024x1024, .f32⟩
  | .hbm, ⟨15, _⟩ => ⟨S128x1024x1024, .f32⟩
  | .hbm, ⟨16, _⟩ => ⟨S128x1024x1024, .f32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i32⟩
  | .hbm, ⟨21, _⟩ => ⟨S1024x1024, .i32⟩
  | .hbm, ⟨22, _⟩ => ⟨S1024x1024, .i1⟩
  | .hbm, ⟨23, _⟩ => ⟨S128x1024x1024, .i1⟩
  | .hbm, ⟨24, _⟩ => ⟨S_, .f32⟩
  | .hbm, ⟨25, _⟩ => ⟨S128x1024x1024, .f32⟩
  | .hbm, ⟨26, _⟩ => ⟨S128x1024x1024, .f32⟩
  | .hbm, ⟨27, _⟩ => ⟨S1x1024x1024, .f32⟩
  | .hbm, ⟨28, _⟩ => ⟨S128x1024x1024, .f32⟩
  | .hbm, ⟨29, _⟩ => ⟨S128x1024x1024, .f32⟩
  | .hbm, ⟨30, _⟩ => ⟨S128x1048576, .f32⟩
  | .hbm, ⟨31, _⟩ => ⟨S_, .f32⟩
  | .hbm, ⟨32, _⟩ => ⟨S128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_cst : Ref sig .tc := ⟨.hbm, 24, rfl⟩
abbrev main_call0_v6 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S128x1024_S128x1024x1_0_1 : S128x1024.BroadcastsInDim S128x1024x1 (![0, 1] : Fin 2 → Fin S128x1024x1.rank)
  bcast_S_S128x1x1024 : S_.BroadcastsInDim S128x1x1024 (![] : Fin 0 → Fin S128x1x1024.rank)
  bcast_S_S128x1024x1 : S_.BroadcastsInDim S128x1024x1 (![] : Fin 0 → Fin S128x1024x1.rank)
  bcast_S128x1x1024_S128x1024x1024_0_1_2 : S128x1x1024.BroadcastsInDim S128x1024x1024 (![0, 1, 2] : Fin 3 → Fin S128x1024x1024.rank)
  bcast_S128x1024x1_S128x1024x1024_0_1_2 : S128x1024x1.BroadcastsInDim S128x1024x1024 (![0, 1, 2] : Fin 3 → Fin S128x1024x1024.rank)
  bcast_S_S1024x1024 : S_.BroadcastsInDim S1024x1024 (![] : Fin 0 → Fin S1024x1024.rank)
  bcast_S1024x1024_S128x1024x1024_1_2 : S1024x1024.BroadcastsInDim S128x1024x1024 (![1, 2] : Fin 2 → Fin S128x1024x1024.rank)
  bcast_S_S128x1024x1024 : S_.BroadcastsInDim S128x1024x1024 (![] : Fin 0 → Fin S128x1024x1024.rank)
  bcast_S1024x1024_S1x1024x1024_1_2 : S1024x1024.BroadcastsInDim S1x1024x1024 (![1, 2] : Fin 2 → Fin S1x1024x1024.rank)
  bcast_S1x1024x1024_S128x1024x1024_0_1_2 : S1x1024x1024.BroadcastsInDim S128x1024x1024 (![0, 1, 2] : Fin 3 → Fin S128x1024x1024.rank)
  shapeCasts_S128x1024x1024_S128x1048576 : S128x1024x1024.ShapeCasts S128x1048576
  reducesTo_S128x1048576_S128_d1 : S128x1048576.ReducesTo [1] S128
  h_S_ : 0 < S_.numel

variable [Facts₀]

class Facts : Prop extends Facts₀ where

variable [Facts]
-- ==== Proof.KernelRun.lean ====
/-
  The kernel's run, read: the pipeline has one grid point and each of its three windows is its whole array, so
  the input blocks the body loads ARE the two argument arrays, the one block written back covers the result array,
  and the result array ends at the body's stored vector of the argument arrays.
-/
import proofs.«100641_j19688130085114_1_alg».proof.Proof.Gen.KernelIdeal.Value
import Idealize.ShloMosaic.Lib.Pipeline.Value
import Idealize.ShloMosaic.PureOps.Ideal
import Idealize.ShloMosaic.Lib.Tactic

noncomputable section

open Idealize.ShloMosaic Idealize.ShloMosaic.TcCoe Idealize.SL.Sem
open Idealize.ShloMosaic.Pipeline (Dat)

namespace Cert.Potts.KRun

open Cert.KernelIdeal Cert.KernelIdeal.Gen Cert.KernelIdeal.Value

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The body's stored vector of the two argument arrays. -/
abbrev result (c : Dev nD) : Buf (Elt Ideal) ((c : Thread nD τ).loc main_v0) :=
  k0_pay1 (F := Ideal) (m ((c : Thread nD τ).loc main_arg0)) (m ((c : Thread nD τ).loc main_arg1))

/-- Every window's block index is zero at the one grid point. -/
theorem idx0 : ∀ (t : Fin cfg0.N) (a : Fin 2), win0_0.index t a = 0 :=
  (by decide +kernel : ∀ (t : Fin grid0.N) (a : Fin 2), win0_0.index t a = 0)
theorem idx1 : ∀ (t : Fin cfg0.N) (a : Fin 2), win0_1.index t a = 0 :=
  (by decide +kernel : ∀ (t : Fin grid0.N) (a : Fin 2), win0_1.index t a = 0)
theorem idx2 : ∀ (t : Fin cfg0.N) (a : Fin 1), win0_2.index t a = 0 :=
  (by decide +kernel : ∀ (t : Fin grid0.N) (a : Fin 1), win0_2.index t a = 0)

/-- The state window's block is the state array. -/
theorem iblk0_eq (c : Dev nD) (t : Fin cfg0.N) :
    (iblk m c 0 t : Vec Ideal S128x1024 .f32) = (m ((c : Thread nD τ).loc main_arg0) : S128x1024.Idx → Elt Ideal .f32) := by
  funext x
  unfold iblk
  rw [View.read_apply]
  show V m c main_arg0 _ = m (c.tc.loc main_arg0) _
  unfold V
  congr 1
  funext a
  apply Fin.ext
  match a with
  | ⟨0, _⟩ => show win0_0.index t 0 * 128 + 1 * (x 0).val = (x 0).val; rw [idx0 t 0]; omega
  | ⟨1, _⟩ => show win0_0.index t 1 * 1024 + 1 * (x 1).val = (x 1).val; rw [idx0 t 1]; omega

/-- The interaction window's block is the interaction matrix. -/
theorem iblk1_eq (c : Dev nD) (t : Fin cfg0.N) :
    (iblk m c 1 t : Vec Ideal S1024x1024 .f32) = (m ((c : Thread nD τ).loc main_arg1) : S1024x1024.Idx → Elt Ideal .f32) := by
  funext x
  unfold iblk
  rw [View.read_apply]
  show V m c main_arg1 _ = m (c.tc.loc main_arg1) _
  unfold V
  congr 1
  funext a
  apply Fin.ext
  match a with
  | ⟨0, _⟩ => show win0_1.index t 0 * 1024 + 1 * (x 0).val = (x 0).val; rw [idx1 t 0]; omega
  | ⟨1, _⟩ => show win0_1.index t 1 * 1024 + 1 * (x 1).val = (x 1).val; rw [idx1 t 1]; omega

/-- What the one point writes back is the stored vector, read through the result window's whole-array block. -/
theorem flushed_eq (c : Dev nD) (t : Fin cfg0.N) (hf : (cfg0.win 2).flush t = true) :
    (dats m 0 c).flushed 2 t = ((cfg0.win 2).blk t).view.read (Elt Ideal) (result m c) := by
  rw [flushed2]
  unfold out0_2
  rw [View.canon_unit_zero hz1]
  simp only [View.ld_unit_zero (S := S128x1024) hz2, View.ld_unit_zero (S := S1024x1024) hz2]
  rw [iblk0_eq, iblk1_eq]
  have hz' : (fun a => win0_2.index t a * main_v0.ty.shape.size a) = fun _ => 0 :=
    funext fun a => by
      match a with
      | ⟨0, _⟩ => show win0_2.index t 0 * 128 = 0; rw [idx2 t 0]
  exact (Memref.read_access_unit_zero (Elt Ideal) main_v0 hz' (fun a => by rw [congrFun hz' a]; simp) (result m c)).symm

/-- So the result array ends holding the stored vector: the one block covers it. -/
theorem final_o (c : Dev nD) : (dats m 0 c).arrAt 2 cfg0.N = result m c :=
  (dats m 0 c).arrAt_eq_of_cover 2 (result m c) (flushed_eq m c) fun i =>
    ⟨t0_0, flush0_2 t0_0, by
      show i ∈ ((View.whole main_v0).slice (win0_2.rect t0_0)).set
      rw [View.set_slice_whole, Rect.mem_set_unit]
      intro a
      have h0 : (i 0 : Nat) < 128 := (i 0).isLt
      match a with
      | ⟨0, _⟩ =>
        show win0_2.index t0_0 0 * win0_2.size 0 ≤ (i 0 : Nat)
          ∧ (i 0 : Nat) < win0_2.index t0_0 0 * win0_2.size 0 + win0_2.xsize (grid0.coords t0_0) 0
        rw [show win0_2.index t0_0 0 * win0_2.size 0 = 0 from by decide +kernel,
          show win0_2.xsize (grid0.coords t0_0) 0 = 128 from by decide +kernel]
        omega⟩

/-- The run, read: the result array at the stored vector of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_o m c), (h c).2⟩)
    (Cert.KernelIdeal.Value.run_blocks m ρ)

end Cert.Potts.KRun

end
-- ==== Proof.PottsMask.lean ====
/-
  The upper-triangular mask of the interaction matrix, and the two ways the programs compute it on words.

  `triu w i j` is the matrix entry `w (i, j)` where `i ≤ j` and zero below the diagonal. The kernel tests
  `row ≤ col` on 32-bit signed words; the reference tests `row - 1 ≥ col`, signed, that is `col < row`, and keeps
  the entry where the test FAILS. Row and column numbers are below 1024, far below 2³¹, so both tests read the
  order of the two numbers: for row 0 the word `0 + (-1)` is the signed `-1`, below every column.
-/
import Idealize.ShloMosaic.Lib.ValueIdx
import Idealize.ShloMosaic.Lib.Affine
import Idealize.ShloMosaic.Lib.StableHlo.Predicate
import Idealize.ShloMosaic.PureOps.Ideal

noncomputable section

namespace Cert.Potts

open Idealize.ShloMosaic Idealize.ShloMosaic.ValueIdx

/-- The interaction matrix kept on and above its diagonal, zero below. -/
def triu (w : (⟨2, ![1024, 1024]⟩ : Shape).Idx → EReal) (i j : Fin 1024) : EReal :=
  if i ≤ j then w (ix2 i j) else 0

/-- The signed test `row ≤ col` on the words of two numbers below 1024 is the order of the numbers. -/
theorem sle_word_iff (i j : Fin 1024) :
    IntOp.cmpi .sle (BitVec.ofNat 32 i.val) (BitVec.ofNat 32 j.val) = 1#1 ↔ i ≤ j := by
  have hi := i.isLt
  have hj := j.isLt
  unfold IntOp.cmpi
  exact (StableHlo.Predicate.sle_ofNat_iff i.val j.val (by omega) (by omega)).trans Fin.le_def.symm

/-- Adding the word of `-1` to the word of a positive number below 1024 gives the word of its predecessor:
    `i + (2³² - 1) = (i - 1) + 2³²`, and the sum is taken modulo `2³²`. -/
theorem pred_word (i : Fin 1024) (hpos : 0 < i.val) :
    BitVec.ofNat 32 i.val + 4294967295#32 = BitVec.ofNat 32 (i.val - 1) := by
  have hi := i.isLt
  apply BitVec.eq_of_toNat_eq
  rw [BitVec.toNat_add, BitVec.toNat_ofNat, BitVec.toNat_ofNat, BitVec.toNat_ofNat]
  have h1 : i.val % 2 ^ 32 = i.val := Nat.mod_eq_of_lt (by omega)
  have h2 : (4294967295 : ℕ) % 2 ^ 32 = 4294967295 := by norm_num
  have h3 : (i.val - 1) % 2 ^ 32 = i.val - 1 := Nat.mod_eq_of_lt (by omega)
  have h4 : i.val + 4294967295 = (i.val - 1) + 1 * 2 ^ 32 := by
    have hs : i.val = (i.val - 1) + 1 := (Nat.sub_add_cancel hpos).symm
    have hn : (1 : ℕ) * 2 ^ 32 = 1 + 4294967295 := by norm_num
    rw [hn, ← Nat.add_assoc, ← hs]
  rw [h1, h2, h3, h4, Nat.add_mul_mod_self_right, h3]

/-- The signed test `row + (-1) ≥ col` on words says `col < row`: the word of `row - 1` for a positive row,
    the signed `-1` for row 0. -/
theorem sge_pred_word_iff (i j : Fin 1024) :
    IntOp.cmpi .sge (BitVec.ofNat 32 i.val + 4294967295#32) (BitVec.ofNat 32 j.val) = 1#1 ↔ j < i := by
  have hi := i.isLt
  have hj := j.isLt
  rw [IntOp.cmpi_sge, StableHlo.Predicate.toInt_ofNat_small j.val (by omega), Fin.lt_def]
  rcases Nat.eq_zero_or_pos i.val with h0 | hpos
  · rw [h0]
    have hm : (BitVec.ofNat 32 0 + 4294967295#32).toInt = -1 := by
      rw [BitVec.zero_add, BitVec.toInt_eq_toNat_cond, BitVec.toNat_ofNat]
      norm_num
    rw [hm]
    constructor
    · intro h; omega
    · intro h; omega
  · rw [pred_word i hpos, StableHlo.Predicate.toInt_ofNat_small (i.val - 1) (by omega)]
    constructor
    · intro h; omega
    · intro h; omega

end Cert.Potts

end
-- ==== Proof.PottsReduce.lean ====
/-
  Sums read at an entry, at the ideal values: a row sum, a column sum and the total of a matrix as the kernel's
  lane reductions compute them, and a matrix product into a zero accumulator as the sum over the shared index.
  Each is the library's reading of the operation with the summation index written by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Potts

open Idealize.ShloMosaic Idealize.ShloMosaic.ValueIdx

variable {a b : ℕ}

/-- A sum along the columns: entry `p` of the reduction over axis 1 is the sum of row `p`. -/
theorem sum_axis1_apply (X : (⟨2, ![a, b]⟩ : Shape).Idx → EReal) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction (F := Ideal) (φ := .f32) .add [1] ⟨1, ![a]⟩ X acc h hφ hacc (ix1 p) = ∑ q : Fin b, X (ix2 p q) := by
  rw [Ideal.multiReduction_add_single]
  exact Finset.sum_congr rfl fun k _ => congrArg X (funext fun ax => Fin.ext (by
    match ax with
    | ⟨0, _⟩ => rfl
    | ⟨1, _⟩ => rfl))

/-- A sum along the rows: entry `q` of the reduction over axis 0 is the sum of column `q`. -/
theorem sum_axis0_apply (X : (⟨2, ![a, b]⟩ : Shape).Idx → EReal) (acc : BitVec FTy.f32.bits)
    (h : (⟨2, ![a, b]⟩ : Shape).Reduces [0] ⟨1, ![b]⟩) (hφ : FKind.Formats .f32) (hacc : acc = FKind.add.neutral .f32 hφ)
    (q : Fin b) :
    multiReduction (F := Ideal) (φ := .f32) .add [0] ⟨1, ![b]⟩ X acc h hφ hacc (ix1 q) = ∑ p : Fin a, X (ix2 p q) := by
  rw [Ideal.multiReduction_add_single]
  exact Finset.sum_congr rfl fun k _ => congrArg X (funext fun ax => Fin.ext (by
    match ax with
    | ⟨0, _⟩ => rfl
    | ⟨1, _⟩ => rfl))

/-- The total: a matrix viewed `[1, a, b]` and reduced over its two long axes into one entry is the sum of all
    its entries, row by row. The view is a re-indexing of the same entries, so the sum over it is the sum over the
    matrix. -/
theorem sum_total_apply (X : (⟨2, ![a, b]⟩ : Shape).Idx → EReal) (acc : BitVec FTy.f32.bits)
    (hc : (⟨2, ![a, b]⟩ : Shape).ShapeCasts ⟨3, ![1, a, b]⟩)
    (h : (⟨3, ![1, a, b]⟩ : Shape).Reduces [1, 2] ⟨1, ![1]⟩) (hφ : FKind.Formats .f32) (hacc : acc = FKind.add.neutral .f32 hφ)
    (j : (⟨1, ![1]⟩ : Shape).Idx) :
    multiReduction (F := Ideal) (φ := .f32) .add [1, 2] ⟨1, ![1]⟩ (shapeCast ⟨3, ![1, a, b]⟩ X hc) acc h hφ hacc j
      = ∑ p : Fin a, ∑ q : Fin b, X (ix2 p q) := by
  rw [Ideal.multiReduction_add_total _ _ h (fun ax => by match ax with | ⟨0, _⟩ => rfl)]
  unfold shapeCast
  rw [Equiv.sum_comp (Shape.reshapeEquiv hc) X]
  exact sum_idx2 X

/-- A sum over the `1024 · 1024` positions of a flattened matrix, position `k` standing for row `k / 1024` and column
    `k % 1024`, is the double sum over rows and columns: the positions are the pairs, in row-major order. -/
theorem sum_flat (f : Fin 1024 → Fin 1024 → EReal) :
    ∑ k : Fin 1048576, f ⟨k.val / 1024, by have := k.isLt; omega⟩ ⟨k.val % 1024, Nat.mod_lt _ (by norm_num)⟩
      = ∑ i : Fin 1024, ∑ j : Fin 1024, f i j := by
  let e : Fin 1024 × Fin 1024 ≃ Fin 1048576 := finProdFinEquiv
  rw [← Equiv.sum_comp e, Fintype.sum_prod_type]
  refine Finset.sum_congr rfl fun i _ => Finset.sum_congr rfl fun j _ => ?_
  have hi := i.isLt
  have hj := j.isLt
  have h1 : (e (i, j)).val = j.val + 1024 * i.val := rfl
  congr 1 <;> apply Fin.ext <;> simp only [h1] <;> omega

end Cert.Potts

end
-- ==== Proof.KernelValue.lean ====
/-
  The kernel's stored vector, entry by entry, at the ideal values.

  The body masks the interaction block to its upper triangle (`ublk`, read entry by entry as `triu`), multiplies
  the state block by it (`ymat`: row `p`, column `q` is `∑ k, v p k · u k q`; the change to a narrower float format
  before the product is the identity here), and from these forms, for each row `p` of the state block, the quadratic
  sum `∑ q, (∑ k, v p k · u k q) · v p q`, the linear sum `∑ n, v p n · (rowsum n + colsum n)` of the mask's row and
  column sums, and the mask's total. The stored entry is `total - linear + 2 · quadratic`, the `2` still spelt by
  its float word.
-/
import proofs.«100641_j19688130085114_1_alg».proof.Proof.Gen.KernelIdeal.Skeleton
import proofs.«100641_j19688130085114_1_alg».proof.Proof.PottsMask
import proofs.«100641_j19688130085114_1_alg».proof.Proof.PottsReduce

noncomputable section

namespace Cert.Potts.Kernel

open Idealize.ShloMosaic Idealize.ShloMosaic.ValueIdx Cert.KernelIdeal Cert.KernelIdeal.Gen

/-! ## The product's operand indices -/

/-- The left operand is read on its row axis where the result is. -/
theorem lhs_ax0 (j : S128x1024.Idx) (k : dot_S128x1024_S1024x1024_S128x1024_1_0_0_1_n_n.contr.Idx) :
    (dot_S128x1024_S1024x1024_S128x1024_1_0_0_1_n_n.lhsIdx j k 0).val = (j 0).val := by
  unfold DotDims.lhsIdx
  rw [dif_neg (show ¬ (0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl

/-- The left operand is read on its column axis at the summation index. -/
theorem lhs_ax1 (j : S128x1024.Idx) (k : dot_S128x1024_S1024x1024_S128x1024_1_0_0_1_n_n.contr.Idx) :
    (dot_S128x1024_S1024x1024_S128x1024_1_0_0_1_n_n.lhsIdx j k 1).val = (k ⟨0, by decide⟩).val :=
  DotDims.lhsIdx_val_of_single (d := dot_S128x1024_S1024x1024_S128x1024_1_0_0_1_n_n) (cl := 1) rfl j k

/-- The right operand is read on its row axis at the summation index. -/
theorem rhs_ax0 (j : S128x1024.Idx) (k : dot_S128x1024_S1024x1024_S128x1024_1_0_0_1_n_n.contr.Idx) :
    (dot_S128x1024_S1024x1024_S128x1024_1_0_0_1_n_n.rhsIdx j k 0).val = (k ⟨0, by decide⟩).val :=
  DotDims.rhsIdx_val_of_single (d := dot_S128x1024_S1024x1024_S128x1024_1_0_0_1_n_n) (cr := 0) rfl j k

/-- The right operand is read on its column axis where the result is. -/
theorem rhs_ax1 (j : S128x1024.Idx) (k : dot_S128x1024_S1024x1024_S128x1024_1_0_0_1_n_n.contr.Idx) :
    (dot_S128x1024_S1024x1024_S128x1024_1_0_0_1_n_n.rhsIdx j k 1).val = (j 1).val := by
  unfold DotDims.rhsIdx
  rw [dif_neg (show ¬ (1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- The product into a zero accumulator, entry `(p, q)`: the sum over the shared index of row `p` of the left
    operand against column `q` of the right one. -/
theorem product_apply (A : FVec Ideal S128x1024 .bf16) (B : FVec Ideal S1024x1024 .bf16) (p : Fin 128) (q : Fin 1024) :
    matmul dot_S128x1024_S1024x1024_S128x1024_1_0_0_1_n_n none A B (constant S128x1024 .f32 0x00000000#32) (ix2 p q)
      = ∑ k : Fin 1024, A (ix2 p k) * B (ix2 k q) := by
  refine (Ideal.matmul_constant_zero_apply dot_S128x1024_S1024x1024_S128x1024_1_0_0_1_n_n none A B (ix2 p q)).trans ?_
  rw [← Equiv.sum_comp (contrEquiv1 dot_S128x1024_S1024x1024_S128x1024_1_0_0_1_n_n 1024 rfl rfl).symm]
  refine Finset.sum_congr rfl fun c _ => ?_
  have hc := contrEquiv1_symm_val dot_S128x1024_S1024x1024_S128x1024_1_0_0_1_n_n 1024 rfl rfl c
  have hl : dot_S128x1024_S1024x1024_S128x1024_1_0_0_1_n_n.lhsIdx (ix2 p q) ((contrEquiv1 dot_S128x1024_S1024x1024_S128x1024_1_0_0_1_n_n 1024 rfl rfl).symm c) = ix2 p c := by
    funext ax; apply Fin.ext
    match ax with
    | ⟨0, _⟩ => exact lhs_ax0 _ _
    | ⟨1, _⟩ => exact (lhs_ax1 _ _).trans hc
  have hr : dot_S128x1024_S1024x1024_S128x1024_1_0_0_1_n_n.rhsIdx (ix2 p q) ((contrEquiv1 dot_S128x1024_S1024x1024_S128x1024_1_0_0_1_n_n 1024 rfl rfl).symm c) = ix2 c q := by
    funext ax; apply Fin.ext
    match ax with
    | ⟨0, _⟩ => exact (rhs_ax0 _ _).trans hc
    | ⟨1, _⟩ => exact rhs_ax1 _ _
  rw [hl, hr]

/-! ## The body's values, named -/

variable (x0 : Vec Ideal S128x1024 .f32) (x1 : Vec Ideal S1024x1024 .f32)

/-- The interaction block masked to its upper triangle, as the body builds it: the block where the row number is
    at most the column number, the zero word elsewhere. -/
def ublk : Vec Ideal S1024x1024 .f32 :=
  select (cmpi .sle (iota .tc S1024x1024 32 [0] iota_S1024x1024_d0_w32) (iota .tc S1024x1024 32 [1] iota_S1024x1024_d1_w32)) x1
    (broadcast S1024x1024 (Scalar.ofBits (F := Ideal) .f32 0x00000000#32))

/-- The state block times the masked block. -/
def ymat : FVec Ideal S128x1024 .f32 :=
  matmul dot_S128x1024_S1024x1024_S128x1024_1_0_0_1_n_n none (truncf .bf16 x0 bitsLt_bf16_f32) (truncf .bf16 (ublk x1) bitsLt_bf16_f32)
    (constant S128x1024 .f32 0x00000000#32)

/-- Row by row, the product block against the state block, summed. -/
def quad : FVec Ideal S128 .f32 :=
  multiReduction .add [1] S128 (mulf (ymat x0 x1) x0) 0x00000000#32 reduces_S128x1024_S128 (.inl rfl) rfl

/-- The masked block's row sums and column sums. -/
def rowS : FVec Ideal S1024 .f32 :=
  multiReduction .add [1] S1024 (ublk x1) 0x00000000#32 reduces_S1024x1024_S1024 (.inl rfl) rfl
def colS : FVec Ideal S1024 .f32 :=
  multiReduction .add [0] S1024 (ublk x1) 0x00000000#32 reduces_S1024x1024_S1024_2 (.inl rfl) rfl

/-- Row by row, the state block against the row sums plus the column sums, summed. -/
def lin : FVec Ideal S128 .f32 :=
  multiReduction .add [1] S128
    (mulf x0 (broadcastTo S128x1024 (shapeCast S1x1024 (addf (rowS x1) (colS x1)) shapeCasts_S1024_S1x1024)
      broadcasts_S1x1024_S128x1024))
    0x00000000#32 reduces_S128x1024_S128 (.inl rfl) rfl

/-- The masked block's total, extracted as a scalar. -/
def tot : Ideal .f32 :=
  extractAt ![0, 0, 0]
    (shapeCast S1x1x1
      (multiReduction .add [1, 2] S1 (shapeCast S1x1024x1024 (ublk x1) shapeCasts_S1024x1024_S1x1024x1024) 0x00000000#32
        reduces_S1x1024x1024_S1 (.inl rfl) rfl)
      shapeCasts_S1_S1x1x1)
    inpos_S1x1x1_p0_0_0

/-- The stored vector is `total - linear + 2 · quadratic` of these. -/
theorem pay_eq : k0_pay1 (F := Ideal) x0 x1
    = addf (subf (broadcast S128 (tot x1)) (lin x0 x1))
        (mulf (broadcast S128 (Scalar.ofBits (F := Ideal) .f32 0x40000000#32)) (quad x0 x1)) := rfl

/-! ## Each value at an entry -/

/-- The masked block at `(i, j)` is the matrix entry on and above the diagonal, zero below. -/
theorem ublk_apply (i j : Fin 1024) : ublk x1 (ix2 i j) = triu x1 i j := by
  unfold ublk triu
  rw [select_apply]
  have hm : cmpi .sle (iota .tc S1024x1024 32 [0] iota_S1024x1024_d0_w32) (iota .tc S1024x1024 32 [1] iota_S1024x1024_d1_w32) (ix2 i j)
      = IntOp.cmpi .sle (BitVec.ofNat 32 i.val) (BitVec.ofNat 32 j.val) := by
    show IntOp.cmpi .sle (iota .tc S1024x1024 32 [0] iota_S1024x1024_d0_w32 (ix2 i j))
      (iota .tc S1024x1024 32 [1] iota_S1024x1024_d1_w32 (ix2 i j)) = _
    rw [iota_single_apply, iota_single_apply]
  rw [hm]
  by_cases hij : i ≤ j
  · rw [(sle_word_iff i j).mpr hij, select_one, if_pos hij]
  · rw [eq_zero_of_ne_one (fun h => hij ((sle_word_iff i j).mp h)), select_zero, if_neg hij]
    exact Ideal.ofBits_zero_f32

theorem ymat_apply (p : Fin 128) (q : Fin 1024) :
    ymat x0 x1 (ix2 p q) = ∑ k : Fin 1024, x0 (ix2 p k) * triu x1 k q := by
  unfold ymat
  rw [product_apply]
  exact Finset.sum_congr rfl fun k _ => by rw [truncf_apply, truncf_apply, ublk_apply]

theorem quad_apply (p : Fin 128) :
    quad x0 x1 (ix1 p) = ∑ q : Fin 1024, (∑ k : Fin 1024, x0 (ix2 p k) * triu x1 k q) * x0 (ix2 p q) := by
  unfold quad
  refine (sum_axis1_apply (mulf (ymat x0 x1) x0) _ _ _ _ p).trans ?_
  exact Finset.sum_congr rfl fun q _ => by rw [mulf_apply, ymat_apply]

theorem rowS_apply (n : Fin 1024) : rowS x1 (ix1 n) = ∑ j : Fin 1024, triu x1 n j := by
  unfold rowS
  refine (sum_axis1_apply (ublk x1) _ _ _ _ n).trans ?_
  exact Finset.sum_congr rfl fun j _ => ublk_apply x1 n j

theorem colS_apply (n : Fin 1024) : colS x1 (ix1 n) = ∑ i : Fin 1024, triu x1 i n := by
  unfold colS
  refine (sum_axis0_apply (ublk x1) _ _ _ _ n).trans ?_
  exact Finset.sum_congr rfl fun i _ => ublk_apply x1 i n

theorem lin_apply (p : Fin 128) :
    lin x0 x1 (ix1 p)
      = ∑ n : Fin 1024, x0 (ix2 p n) * ((∑ j : Fin 1024, triu x1 n j) + ∑ i : Fin 1024, triu x1 i n) := by
  unfold lin
  refine (sum_axis1_apply _ _ _ _ _ p).trans ?_
  refine Finset.sum_congr rfl fun n _ => ?_
  rw [mulf_apply, broadcastTo_1b_ab_apply, shapeCast_a_1a_apply, addf_apply, rowS_apply, colS_apply]

theorem tot_eq : tot x1 = ∑ i : Fin 1024, ∑ j : Fin 1024, triu x1 i j := by
  unfold tot extractAt
  rw [shapeCast_apply _ shapeCasts_S1_S1x1x1 _ (ix1 (0 : Fin 1)) (by decide)]
  refine (sum_total_apply (ublk x1) _ _ _ _ _ _).trans ?_
  exact Finset.sum_congr rfl fun i _ => Finset.sum_congr rfl fun j _ => ublk_apply x1 i j

/-- THE STORED ENTRY of row `p`: the mask's total, minus the state row against the mask's row and column sums,
    plus the float word `2.0` times the quadratic sum. -/
theorem pay_apply (p : Fin 128) :
    k0_pay1 (F := Ideal) x0 x1 (ix1 p)
      = (∑ i : Fin 1024, ∑ j : Fin 1024, triu x1 i j)
          - (∑ n : Fin 1024, x0 (ix2 p n) * ((∑ j : Fin 1024, triu x1 n j) + ∑ i : Fin 1024, triu x1 i n))
        + Ideal.ofBits .f32 0x40000000#32
            * ∑ q : Fin 1024, (∑ k : Fin 1024, x0 (ix2 p k) * triu x1 k q) * x0 (ix2 p q) := by
  rw [pay_eq, addf_apply, subf_apply, mulf_apply, broadcast_apply, broadcast_apply, tot_eq, lin_apply, quad_apply]
  rfl

end Cert.Potts.Kernel

end
-- ==== Proof.RefValue.lean ====
/-
  The reference's result, entry by entry, at the ideal values.

  Entry `(b, i, j)` of the reference's product array is `δ b i j · w (i, j)` on and above the diagonal and
  `0 · w (i, j)` below it, where `δ b i j = (1 - v b j) (1 - v b i) + v b j · v b i` is the symmetric agreement
  term of the two states (the state array is broadcast along a new middle axis for the column state and along a
  new last axis for the row state) and the mask keeps an entry unless `col < row`. The result at `b` is the zero
  word plus the sum of that array's row `b` flattened to `1024 · 1024` positions, that is the double sum over
  `(i, j)`.
-/
import proofs.«100641_j19688130085114_1_alg».proof.Proof.RefReadP
import proofs.«100641_j19688130085114_1_alg».proof.Proof.PottsMask
import proofs.«100641_j19688130085114_1_alg».proof.Proof.PottsReduce

noncomputable section

namespace Cert.Potts.Ref

open Idealize.ShloMosaic Idealize.ShloMosaic.ValueIdx Cert.ReferenceIdeal Cert.ReferenceIdeal.ReadP

variable (x0 : (⟨S128x1024, .f32⟩ : BufTy).Contents (Elt Ideal)) (x1 : (⟨S1024x1024, .f32⟩ : BufTy).Contents (Elt Ideal))

/-- The agreement term of the column state `v b j` and the row state `v b i`, the `1` spelt by its float word. -/
def delta (b : Fin 128) (i j : Fin 1024) : EReal :=
  (Ideal.ofBits .f32 0x3F800000#32 - x0 (ix2 b j)) * (Ideal.ofBits .f32 0x3F800000#32 - x0 (ix2 b i))
    + x0 (ix2 b j) * x0 (ix2 b i)

/-- The sum of the two products at `(b, i, j)`: the broadcasts read the state array at `(b, j)` and at `(b, i)`. -/
theorem v12_apply (b : Fin 128) (i j : Fin 1024) : val_main_v12 (F := Ideal) x0 (ix3 b i j) = delta x0 b i j := by
  -- both broadcasts of the column state read the state array at (b, j), both of the row state at (b, i)
  have e6 : idx_main_v0 (idx_main_v6 (ix3 b i j)) = ix2 b j :=
    funext fun a => Fin.ext (by match a with | ⟨0, _⟩ => rfl | ⟨1, _⟩ => rfl)
  have e7 : idx_main_v1 (idx_main_v7 (ix3 b i j)) = ix2 b i :=
    funext fun a => Fin.ext (by match a with | ⟨0, _⟩ => rfl | ⟨1, _⟩ => rfl)
  simp only [val_main_v12_apply, val_main_v8_apply, val_main_v11_apply, val_main_v6_apply, val_main_v7_apply,
    val_main_v9_apply, val_main_v10_apply, val_main_v3_apply, val_main_v5_apply, val_main_v2_apply, val_main_v4_apply,
    val_main_cst_apply, val_main_cst_0_apply, val_main_v0_apply, val_main_v1_apply]
  rw [e6, e7]
  rfl

/-- The mask at `(b, i, j)` is the signed test `i + (-1) ≥ j` on the words of `i` and `j`. -/
theorem mask_apply (b : Fin 128) (i j : Fin 1024) :
    val_main_call0_v5 (F := Ideal) (ix3 b i j)
      = IntOp.cmpi .sge (BitVec.ofNat 32 i.val + 4294967295#32) (BitVec.ofNat 32 j.val) := by
  rw [val_main_call0_v5_apply, val_main_call0_v4_apply, val_main_call0_v2_apply, val_main_call0_v0_apply,
    val_main_call0_v1_apply, val_main_call0_c_apply, val_main_call0_v3_apply]
  rfl

/-- The product array at `(b, i, j)`: zero below the diagonal, the agreement term on and above it, times `w (i, j)`. -/
theorem v16_apply (b : Fin 128) (i j : Fin 1024) :
    val_main_v16 (F := Ideal) x0 x1 (ix3 b i j) = (if j < i then 0 else delta x0 b i j) * x1 (ix2 i j) := by
  have e15 : idx_main_v14 (idx_main_v15 (ix3 b i j)) = ix2 i j :=
    funext fun a => Fin.ext (by match a with | ⟨0, _⟩ => rfl | ⟨1, _⟩ => rfl)
  rw [val_main_v16_apply, val_main_v13_apply, mask_apply, val_main_call0_v6_apply, val_main_call0_cst_apply, v12_apply,
    val_main_v15_apply, val_main_v14_apply, e15]
  show Scalar.select _ (Ideal.ofBits .f32 0x00000000#32) (delta x0 b i j) * x1 (ix2 i j) = _
  by_cases h : j < i
  · rw [(sge_pred_word_iff i j).mpr h, select_one, if_pos h, Ideal.ofBits_zero_f32]
  · rw [eq_zero_of_ne_one (fun hh => h ((sge_pred_word_iff i j).mp hh)), select_zero, if_neg h]

/-- THE RESULT at `b`: the zero word plus the double sum of the product array's row `b`. -/
theorem v18_apply (b : Fin 128) :
    val_main_v18 (F := Ideal) x0 x1 (ix1 b)
      = Ideal.ofBits .f32 0x00000000#32
        + ∑ i : Fin 1024, ∑ j : Fin 1024, (if j < i then 0 else delta x0 b i j) * x1 (ix2 i j) := by
  rw [val_main_v18_apply, val_main_cst_1_apply]
  refine congrArg (Ideal.ofBits .f32 0x00000000#32 + ·) ?_
  rw [← sum_flat (fun i j => (if j < i then 0 else delta x0 b i j) * x1 (ix2 i j))]
  refine Finset.sum_congr rfl fun k _ => ?_
  have hk := k.isLt
  have hb := b.isLt
  have ek : idx_main_v17 (idx_main_v18 (ix1 b) k)
      = ix3 b ⟨k.val / 1024, by omega⟩ ⟨k.val % 1024, Nat.mod_lt _ (by norm_num)⟩ :=
    funext fun a => Fin.ext (by
      match a with
      | ⟨0, _⟩ => show (b.val * 1048576 + k.val) / 1048576 = b.val; omega
      | ⟨1, _⟩ => show (b.val * 1048576 + k.val) / 1024 % 1024 = k.val / 1024; omega
      | ⟨2, _⟩ => show (b.val * 1048576 + k.val) % 1024 = k.val % 1024; omega)
  rw [val_main_v17_apply, ek, v16_apply]

end Cert.Potts.Ref

end
-- ==== Proof.PottsAlgebra.lean ====
/-
  The algebra of the Potts energy, over the reals, and the passage of finite sums into the extended reals.

  For a state vector `v` and an interaction matrix `u` (already masked to its upper triangle), the energy
  `∑ i j, ((1 - v j) (1 - v i) + v j v i) · u i j` expands, because
  `(1 - v j) (1 - v i) + v j v i = 1 - v i - v j + 2 v i v j`, into the total of `u`, minus the row sums and the
  column sums of `u` each weighted by `v`, plus twice the quadratic form `vᵀ u v`. The expansion distributes
  products over sums and so it is stated over the reals; `coe_sum` carries a real sum into the extended reals.
-/
import Idealize.ShloMosaic.PureOps.Ideal.Laws

noncomputable section

namespace Cert.Potts

/-- The inclusion of the reals in the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type*} [Fintype ι]

/-- The weighted row and column sums together are one double sum: the column part is re-indexed by exchanging
    the two summations. -/
theorem linear_part (v : ι → ℝ) (u : ι → ι → ℝ) :
    ∑ n, v n * ((∑ j, u n j) + ∑ i, u i n) = ∑ i, ∑ j, (v i * u i j + v j * u i j) := by
  simp only [mul_add, Finset.sum_add_distrib, Finset.mul_sum]
  congr 1
  exact Finset.sum_comm

/-- The quadratic form `∑ j, (∑ i, v i · u i j) · v j` as one double sum, the row index outermost. -/
theorem quadratic_part (v : ι → ℝ) (u : ι → ι → ℝ) :
    ∑ j, (∑ i, v i * u i j) * v j = ∑ i, ∑ j, v i * u i j * v j := by
  simp only [Finset.sum_mul]
  exact Finset.sum_comm

/-- THE EXPANSION: total minus the weighted row and column sums plus twice the quadratic form is the energy
    `∑ i j, ((1 - v j) (1 - v i) + v j v i) · u i j`. Term by term it is the polynomial identity
    `u - (a u + b u) + 2 (a u b) = ((1 - b) (1 - a) + b a) u`. -/
theorem energy_expand (v : ι → ℝ) (u : ι → ι → ℝ) :
    (∑ i, ∑ j, u i j) - (∑ n, v n * ((∑ j, u n j) + ∑ i, u i n)) + 2 * ∑ j, (∑ i, v i * u i j) * v j
      = ∑ i, ∑ j, ((1 - v j) * (1 - v i) + v j * v i) * u i j := by
  rw [linear_part, quadratic_part, Finset.mul_sum, ← Finset.sum_sub_distrib, ← Finset.sum_add_distrib]
  refine Finset.sum_congr rfl fun i _ => ?_
  rw [Finset.mul_sum, ← Finset.sum_sub_distrib, ← Finset.sum_add_distrib]
  refine Finset.sum_congr rfl fun j _ => ?_
  ring

end Cert.Potts

end
-- ==== Proof.PottsBridge.lean ====
/-
  The two entries are one number. With every input entry a real, each side is the image in the extended reals of
  a real expression: the kernel's `total - linear + 2 · quadratic`, and the reference's masked sum of the agreement
  terms, whose summand `(if j < i then 0 else δ) · w (i, j)` is `δ · triu w i j` whatever `δ` is. The expansion over
  the reals (`energy_expand`) joins them; the float words `2.0`, `1.0` and `0.0` denote `2`, `1` and `0`.
-/
import proofs.«100641_j19688130085114_1_alg».proof.Proof.PottsAlgebra
import proofs.«100641_j19688130085114_1_alg».proof.Proof.PottsMask

noncomputable section

namespace Cert.Potts

open Idealize.ShloMosaic Idealize.ShloMosaic.ValueIdx

/-- The float word `2.0` denotes the real `2`, and `1.0` the real `1`. -/
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-- Below the diagonal the reference multiplies a zero by `w (i, j)`, on and above it the term by `w (i, j)`: in both
    cases the term times the masked entry. -/
theorem masked_term (x1 : (⟨2, ![1024, 1024]⟩ : Shape).Idx → EReal) (i j : Fin 1024) (D : EReal) :
    (if j < i then 0 else D) * x1 (ix2 i j) = D * triu x1 i j := by
  unfold triu
  by_cases h : j < i
  · rw [if_pos h, if_neg (not_le.mpr h), zero_mul, mul_zero]
  · rw [if_neg h, if_pos (not_lt.mp h)]

/-- THE BRIDGE at row `b`: for real-valued inputs the kernel's entry is the reference's. -/
theorem energy_eq (x0 : (⟨2, ![128, 1024]⟩ : Shape).Idx → EReal) (x1 : (⟨2, ![1024, 1024]⟩ : Shape).Idx → EReal)
    (h0 : ∀ a, ∃ r : ℝ, x0 a = (r : EReal)) (h1 : ∀ a, ∃ r : ℝ, x1 a = (r : EReal)) (b : Fin 128) :
    (∑ i : Fin 1024, ∑ j : Fin 1024, triu x1 i j)
          - (∑ n : Fin 1024, x0 (ix2 b n) * ((∑ j : Fin 1024, triu x1 n j) + ∑ i : Fin 1024, triu x1 i n))
        + Ideal.ofBits .f32 0x40000000#32
            * ∑ q : Fin 1024, (∑ k : Fin 1024, x0 (ix2 b k) * triu x1 k q) * x0 (ix2 b q)
      = Ideal.ofBits .f32 0x00000000#32
        + ∑ i : Fin 1024, ∑ j : Fin 1024,
            (if j < i then 0 else
              (Ideal.ofBits .f32 0x3F800000#32 - x0 (ix2 b j)) * (Ideal.ofBits .f32 0x3F800000#32 - x0 (ix2 b i))
                + x0 (ix2 b j) * x0 (ix2 b i))
            * x1 (ix2 i j) := by
  choose v hv using h0
  choose w hw using h1
  -- the masked entry is the image of the masked real entry
  have hU : ∀ i j : Fin 1024, triu x1 i j = (((if i ≤ j then w (ix2 i j) else 0 : ℝ)) : EReal) := by
    intro i j
    unfold triu
    by_cases h : i ≤ j
    · rw [if_pos h, if_pos h, hw]
    · rw [if_neg h, if_neg h, EReal.coe_zero]
  -- the expansion over the reals, carried into the extended reals term by term
  have key := congrArg (fun r : ℝ => (r : EReal))
    (energy_expand (fun n : Fin 1024 => v (ix2 b n)) (fun i j : Fin 1024 => if i ≤ j then w (ix2 i j) else 0))
  simp only [EReal.coe_add, EReal.coe_sub, EReal.coe_mul, coe_sum] at key
  simp only [masked_term, hU, hv, ofBits_two, ofBits_one, Ideal.ofBits_zero_f32, zero_add]
  exact key

end Cert.Potts

end
-- ==== Proof.PottsFinite.lean ====
/-
  Finiteness. The precondition says that every entry of both inputs has absolute value below `+∞`; at the ideal
  values an entry is an extended real, the absolute value is `max x (-x)`, and the float word `0x7F800000` denotes
  `⊤`. Both infinities have absolute value `⊤`, which is not below `⊤`, so every entry is a real number.
-/
import proofs.«100641_j19688130085114_1_alg».proof.Pre_finite_inputs
import Idealize.ShloMosaic.Lib.ReduceAll
import Idealize.ShloMosaic.Lib.ValueIdx
import Idealize.ShloMosaic.PureOps.Ideal

noncomputable section

namespace Cert.Potts

open Idealize.ShloMosaic Idealize.ShloMosaic.ValueIdx

/-- A rank-0 array has one index. -/
instance subsingleton_scalar_idx : Subsingleton (⟨0, ![]⟩ : Shape).Idx := ⟨fun a b => funext fun d => d.elim0⟩

/-- An extended real whose absolute value is below the float `+∞` is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- Under the precondition, every entry of the state array and of the interaction matrix is a real number. -/
theorem real_of_pre [Cert.Pre_finite_inputs.Facts]
    (a0 : FVec Ideal Cert.Pre_finite_inputs.S128x1024 .f32) (a1 : FVec Ideal Cert.Pre_finite_inputs.S1024x1024 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h' := congrFun h ix0
  dsimp only [Cert.Pre_finite_inputs.fn] at h'
  obtain ⟨h3, h7⟩ := IntOp.andi_eq_one.mp h'
  exact ⟨fun i => real_of_abs_lt_inf (a0 i) (Host.reduce_andi_all _ _ _ _ _ h3 i),
    fun i => real_of_abs_lt_inf (a1 i) (Host.reduce_andi_all _ _ _ _ _ h7 i)⟩

end Cert.Potts

end
-- ==== Proof.lean ====
/-
  The Potts energy: a Pallas kernel against its jnp reference, equal over the extended reals for finite inputs.

  For a state array `v` (128 states of 1024 sites) and an interaction matrix `w` (1024 × 1024) the reference forms,
  for each state `b`, the agreement terms `δ b i j = (1 - v b j) (1 - v b i) + v b j · v b i`, keeps them on and above the
  diagonal, multiplies by `w i j` and sums over `(i, j)`. The kernel never forms the 128 × 1024 × 1024 array: with
  `u` the upper triangle of `w` it computes `total u - ∑ n, v b n · (rowsum u n + colsum u n) + 2 · ∑ q, (v b · u) q · v b q`,
  the product `v · u` on the matrix unit. Since `δ = 1 - v i - v j + 2 · v i · v j`, the two are one polynomial in the
  entries (Proof/PottsAlgebra.lean); the identity distributes products over sums, so it needs every entry to be a
  real, which is what the precondition gives (Proof/PottsFinite.lean).

  The parts: the kernel's run leaves its result array at the body's stored vector of the two arguments
  (Proof/KernelRun.lean: one grid point, every window its whole array), which entry by entry is the expression above
  (Proof/KernelValue.lean); the reference's run leaves its result at its operations' composed term (Proof/RefRunP.lean),
  read one operation at a time (Proof/RefReadP.lean) down to the masked double sum (Proof/RefValue.lean); the bridge
  (Proof/PottsBridge.lean) joins the two entries. The idealization rewrote nothing, so `preserves` is trivial.
-/
import proofs.«100641_j19688130085114_1_alg».proof.Defs
import proofs.«100641_j19688130085114_1_alg».proof.Proof.Gen.Kernel
import proofs.«100641_j19688130085114_1_alg».proof.Proof.Gen.Kernel.Skeleton
import proofs.«100641_j19688130085114_1_alg».proof.Proof.Gen.Kernel.Launch
import proofs.«100641_j19688130085114_1_alg».proof.Proof.Gen.Kernel.Points
import proofs.«100641_j19688130085114_1_alg».proof.Proof.Gen.Kernel.Frame
import proofs.«100641_j19688130085114_1_alg».proof.Proof.Gen.KernelIdeal
import proofs.«100641_j19688130085114_1_alg».proof.Proof.Gen.KernelIdeal.Skeleton
import proofs.«100641_j19688130085114_1_alg».proof.Proof.Gen.KernelIdeal.Launch
import proofs.«100641_j19688130085114_1_alg».proof.Proof.Gen.KernelIdeal.Points
import proofs.«100641_j19688130085114_1_alg».proof.Proof.Gen.KernelIdeal.Frame
import proofs.«100641_j19688130085114_1_alg».proof.Proof.Gen.ReferenceIdeal
import proofs.«100641_j19688130085114_1_alg».proof.Proof.Gen.Pre_finite_inputs
import proofs.«100641_j19688130085114_1_alg».proof.Proof.Gen.KernelIdeal.Value
import proofs.«100641_j19688130085114_1_alg».proof.Proof.RefRunP
import proofs.«100641_j19688130085114_1_alg».proof.Proof.RefReadP
import proofs.«100641_j19688130085114_1_alg».proof.Proof.KernelRun
import proofs.«100641_j19688130085114_1_alg».proof.Proof.KernelValue
import proofs.«100641_j19688130085114_1_alg».proof.Proof.RefValue
import proofs.«100641_j19688130085114_1_alg».proof.Proof.PottsBridge
import proofs.«100641_j19688130085114_1_alg».proof.Proof.PottsFinite
import Idealize.ShloMosaic.Adequacy
import Idealize.ShloMosaic.Init

noncomputable section

namespace Cert.Proof

open Idealize.ShloMosaic Idealize.ShloMosaic.ValueIdx Idealize.SL.Sem

/-- The kernel as printed terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the two arguments, both programs end with the same result: entry `p` of the kernel's
    stored vector is `total - linear + 2 · quadratic`, entry `p` of the reference's result is the masked sum of the
    agreement terms, and for real entries these are equal. -/
theorem algebraic : Cert.algebraic_KernelIdeal_ReferenceIdeal := by
  intro m ρ m' ρ' hpre hagree
  refine ⟨fun c => Cert.Potts.KRun.result m c, Cert.Potts.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, (hagree c).1, (hagree c).2]
  obtain ⟨h0, h1⟩ := Cert.Potts.real_of_pre _ _ (hpre c)
  funext i
  obtain ⟨p, rfl⟩ : ∃ p : Fin 128, i = ix1 p := ⟨i 0, eq_ix1 i⟩
  rw [Cert.Potts.Ref.v18_apply]
  refine Eq.trans ?_ (Cert.Potts.Kernel.pay_apply _ _ p).symm
  unfold Cert.Potts.Ref.delta
  exact (Cert.Potts.energy_eq _ _ h0 h1 p).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
